-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288 : Shape := ⟨2, ![64, 524288]⟩
abbrev S_ : Shape := ⟨0, ![]⟩

class Facts : Prop where
  bcast_S_S64x524288 : S_.BroadcastsInDim S64x524288 (![] : Fin 0 → Fin S64x524288.rank)
  reducesTo_S64x524288_S_d0_1 : S64x524288.ReducesTo [0, 1] S_
  h_S_ : 0 < S_.numel

variable [Facts]

def fn {F : FTy → Type} [FloatOps F] (main_arg0 : FVec F S64x524288 .f32) (main_arg1 : FVec F S64x524288 .f32) : IVec S_ 1 :=
  let main_v0 : FVec F S64x524288 .f32 := Host.absf main_arg0
  let main_cst : FVec F S_ .f32 := constant S_ .f32 0x7F800000#32
  let main_v1 : FVec F S64x524288 .f32 := broadcastInDim S64x524288 ![] bcast_S_S64x524288 main_cst
  let main_v2 : IVec S64x524288 1 := cmpf .olt main_v0 main_v1
  let main_c : IVec S_ 1 := constantI S_ 1 1#1
  let main_v3 : IVec S_ 1 := (fun x v => Host.reduce IntOp.andi x v reducesTo_S64x524288_S_d0_1 h_S_) main_v2 main_c
  let main_v4 : FVec F S64x524288 .f32 := Host.absf main_arg1
  let main_cst_0 : FVec F S_ .f32 := constant S_ .f32 0x7F800000#32
  let main_v5 : FVec F S64x524288 .f32 := broadcastInDim S64x524288 ![] bcast_S_S64x524288 main_cst_0
  let main_v6 : IVec S64x524288 1 := cmpf .olt main_v4 main_v5
  let main_c_1 : IVec S_ 1 := constantI S_ 1 1#1
  let main_v7 : IVec S_ 1 := (fun x v => Host.reduce IntOp.andi x v reducesTo_S64x524288_S_d0_1 h_S_) main_v6 main_c_1
  let main_v8 : IVec S_ 1 := andi main_v3 main_v7
  main_v8
-- ==== Kernel.lean ====
abbrev S64x524288 : Shape := ⟨2, ![64, 524288]⟩
abbrev S64x1 : Shape := ⟨2, ![64, 1]⟩
abbrev S32x16384 : Shape := ⟨2, ![32, 16384]⟩
abbrev S32x1 : Shape := ⟨2, ![32, 1]⟩
abbrev S32 : Shape := ⟨1, ![32]⟩
abbrev S64 : Shape := ⟨1, ![64]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x1, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x1, .f32⟩
  | .local _ .vmem, ⟨5, _⟩ => ⟨S32x1, .f32⟩
  | _, _ => ⟨S64x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x1_S32x1_0_0 : ∀ a, (![0, 0] : Fin 2 → Nat) a + S32x1.size a ≤ S32x1.size a
  h_S32x1 : 0 < S32x1.numel
  inb_S32x16384_S32x16384_0_0 : ∀ a, (![0, 0] : Fin 2 → Nat) a + S32x16384.size a ≤ S32x16384.size a
  h_S32x16384 : 0 < S32x16384.numel
  reduces_S32x16384_S32 : S32x16384.Reduces [1] S32
  shapeCasts_S32_S32x1 : S32.ShapeCasts S32x1
  shapeCasts_S32x1_S32x1 : S32x1.ShapeCasts S32x1
  shapeCasts_S64x1_S64 : S64x1.ShapeCasts S64
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S64x524288.size a
  hwx0_0 : ∀ i : grid0.Coords, EltTy.bits .f32 = 32 ∨ (Rect.block (s := S64x524288) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S64x524288.size a
  hwx0_1 : ∀ i : grid0.Coords, EltTy.bits .f32 = 32 ∨ (Rect.block (s := S64x524288) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)

variable [Facts₀]

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x524288 : Shape := ⟨2, ![64, 524288]⟩
abbrev S_ : Shape := ⟨0, ![]⟩
abbrev S64 : Shape := ⟨1, ![64]⟩

abbrev nBuf : Space → Nat
  | .hbm => 11
  | .vmem => 0
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x524288, .f32⟩
  | .hbm, ⟨3, _⟩ => ⟨S64x524288, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S64x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S64x524288_S64_d1 : S64x524288.ReducesTo [1] S64
  h_S_ : 0 < S_.numel
  reducesTo_S64_S_d0 : S64.ReducesTo [0] S_

variable [Facts₀]

class Facts : Prop extends Facts₀ where

variable [Facts]
-- ==== Proof.Pieces.lean ====
/-
  What one run of the kernel body leaves in the output block, as a value.

  The body keeps a [32, 1] accumulator block. At the first column tile of a row block it stores zeros into it; at every
  tile it then loads a [32, 16384] tile of each input, subtracts them, squares the difference, sums each of the 32 rows
  over the 16384 lanes, and adds that column of row sums to the accumulator. So after the body the accumulator holds
  `acc + rowsums((x₀ - x₁)²)`, with `acc` the zero block at a first tile and what the previous tile left otherwise.
  Read at row `r` over the extended reals: `acc r + ∑ l, (x₀ r l - x₁ r l) · (x₀ r l - x₁ r l)`.
-/
import proofs.«145757_j5652176962170_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]

/-- The offsets of every load and store of the body: the block's origin. -/
theorem origin : (![0, 0] : Fin 2 → Nat) = fun _ => 0 := funext fun a => by fin_cases a <;> rfl

/-- At a later tile of a row block the body's one store covers the accumulator block: it leaves the accumulating
    payload of the two input tiles and the accumulator as the previous tile left it. -/
theorem later_tile (c : Dev nD) (i : grid0.Coords) (a2 : Memref sig .tc .vmem S32x16384 .f32) (h2 : a2.IsWhole)
    (a3 : Memref sig .tc .vmem S32x16384 .f32) (h3 : a3.IsWhole) (a4 : Memref sig .tc .vmem S32x1 .f32) (h4 : a4.IsWhole)
    (hc : ¬cond0_0 i) (x0 x1 : Vec F S32x16384 .f32) (xo : Vec F S32x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero origin]
  simp only [View.readAt_eq_ld, h2.read_unread, h3.read_unread, h4.read_unread, View.ld_unit_zero (S := S32x16384) origin,
    View.ld_unit_zero (S := S32x1) origin]

/-- At the first tile of a row block the body stores the zero block, reads it back as the accumulator, and its last
    store covers the block: it leaves the accumulating payload over the zero block. -/
theorem first_tile (c : Dev nD) (i : grid0.Coords) (a2 : Memref sig .tc .vmem S32x16384 .f32) (h2 : a2.IsWhole)
    (a3 : Memref sig .tc .vmem S32x16384 .f32) (h3 : a3.IsWhole) (a4 : Memref sig .tc .vmem S32x1 .f32) (h4 : a4.IsWhole)
    (hc : cond0_0 i) (x0 x1 : Vec F S32x16384 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S32x1) origin, View.readCov_unit_zero (S := S32x1) _ origin]
  simp only [View.readAt_eq_ld, h2.read_unread, h3.read_unread, View.ld_unit_zero (S := S32x16384) origin]

/-! ## The payloads over the extended reals, at a row -/

/-- The zero block is zero at every row. -/
theorem zero_block_apply (j : S32x1.Idx) : k0_pay1 (F := Ideal) j = 0 := by
  show Ideal.ofBits .f32 0x00000000#32 = 0
  exact Ideal.ofBits_zero_f32

/-- A lane sum with the zero accumulator word, read at row `r`: the sum over the 16384 lanes of that row. -/
theorem lane_sum_apply (src : FVec Ideal S32x16384 .f32) (h : S32x16384.Reduces [1] S32) (hφ : FKind.Formats .f32)
    (hacc : (0x00000000#32 : BitVec 32) = 0x00000000#32) (r : Fin 32) :
    multiReduction .add [1] S32 src 0x00000000#32 h hφ hacc (ix1 r) = ∑ l : Fin 16384, src (ix2 r l) := by
  refine (Ideal.multiReduction_add_single src 0x00000000#32 h hφ hacc (ix1 r)).trans ?_
  refine Finset.sum_congr rfl fun l _ => ?_
  exact congrArg src (funext fun a => Fin.ext (by match a with | ⟨0, _⟩ => rfl | ⟨1, _⟩ => rfl))

/-- A vector of 32 row sums recast as a [32, 1] column, read at row `r`. -/
theorem column_apply (v : S32.Idx → EReal) (h : S32.ShapeCasts S32x1) (r : Fin 32) :
    shapeCast S32x1 v h (ix2 r 0) = v (ix1 r) :=
  shapeCast_apply v h (ix2 r 0) (ix1 r) (by rw [Shape.rowMajor_val_one, Shape.rowMajor_val_two]; simp)

/-- The accumulating payload at row `r`: the accumulator's entry plus the row's sum of squared differences over
    the tile's 16384 lanes. -/
theorem acc_payload_apply (x0 x1 : Vec Ideal S32x16384 .f32) (xo : Vec Ideal S32x1 .f32) (r : Fin 32) :
    k0_pay2 (F := Ideal) x0 x1 xo (ix2 r 0)
      = xo (ix2 r 0) + ∑ l : Fin 16384, (x0 (ix2 r l) - x1 (ix2 r l)) * (x0 (ix2 r l) - x1 (ix2 r l)) := by
  unfold k0_pay2
  dsimp only
  refine (addf_apply _ _ (ix2 r 0)).trans ?_
  refine congrArg₂ (· + ·) ?_ ?_
  · exact congrFun (shapeCast_self xo _) (ix2 r 0)
  · refine (column_apply _ _ r).trans ?_
    exact lane_sum_apply _ _ _ _ r

end Cert.KernelIdeal.Acc

end
-- ==== Proof.Spec.lean ====
/-
  The mathematics both programs compute, stated without either program.

  For two arrays `a`, `b` of shape [64, 524288] over the extended reals, row `R`'s sum of squared differences is
  `∑ q, (a R q - b R q) · (a R q - b R q)`. The kernel reaches it as a running sum over 32 column tiles of 16384
  columns each; the reference takes it in one reduction. Both orders give the same extended real because addition
  on the extended reals is commutative and associative: no finiteness of the entries is used.

  To let the running sum be stated by a plain natural-number bound, the squared difference is extended by zero
  outside the array (`sqAt`), and the partial sums are sums over `Finset.range`.
-/
import Idealize.ShloMosaic.PureOps.Ideal.Laws
import Idealize.ShloMosaic.Lib.ValueIdx

noncomputable section

open scoped BigOperators

namespace Cert.SumSq

open Idealize.ShloMosaic Idealize.ShloMosaic.ValueIdx

/-- The shape of the two argument arrays. -/
abbrev Arr : Shape := ⟨2, ![64, 524288]⟩

/-- The squared difference of `a` and `b` at row `R`, column `q`; zero when `(R, q)` is outside the array. -/
def sqAt (a b : Arr.Idx → EReal) (R q : ℕ) : EReal :=
  if h : R < 64 ∧ q < 524288 then
    (a (ix2 ⟨R, h.1⟩ ⟨q, h.2⟩) - b (ix2 ⟨R, h.1⟩ ⟨q, h.2⟩)) * (a (ix2 ⟨R, h.1⟩ ⟨q, h.2⟩) - b (ix2 ⟨R, h.1⟩ ⟨q, h.2⟩))
  else 0

/-- Inside the array `sqAt` is the squared difference. -/
theorem sqAt_of_lt (a b : Arr.Idx → EReal) (R : Fin 64) (q : Fin 524288) :
    sqAt a b R.val q.val = (a (ix2 R q) - b (ix2 R q)) * (a (ix2 R q) - b (ix2 R q)) := by
  unfold sqAt
  rw [dif_pos ⟨R.isLt, q.isLt⟩]

/-- Row `R`'s sum of squared differences over all 524288 columns. -/
def rowSum (a b : Arr.Idx → EReal) (R : Fin 64) : EReal :=
  ∑ q : Fin 524288, (a (ix2 R q) - b (ix2 R q)) * (a (ix2 R q) - b (ix2 R q))

/-- The partial sum over all columns is the row's sum. -/
theorem sum_range_sqAt (a b : Arr.Idx → EReal) (R : Fin 64) :
    ∑ q ∈ Finset.range 524288, sqAt a b R.val q = rowSum a b R := by
  rw [Finset.sum_range]
  exact Finset.sum_congr rfl fun q _ => sqAt_of_lt a b R q

/-- One column tile: a sum over the 16384 columns of tile `j`, each term the squared difference at column
    `16384 · j + l`, is the corresponding stretch of the partial sums. -/
theorem tile_sum (a b : Arr.Idx → EReal) (R j : ℕ) (g : Fin 16384 → EReal)
    (hg : ∀ l : Fin 16384, g l = sqAt a b R (16384 * j + l.val)) :
    ∑ l : Fin 16384, g l = ∑ l ∈ Finset.range 16384, sqAt a b R (16384 * j + l) := by
  rw [Finset.sum_range]
  exact Finset.sum_congr rfl fun l _ => hg l

/-- Adding tile `j` to the partial sum over the first `j` tiles gives the partial sum over the first `j + 1`. -/
theorem acc_step (f : ℕ → EReal) (j : ℕ) :
    ∑ q ∈ Finset.range (16384 * j), f q + ∑ l ∈ Finset.range 16384, f (16384 * j + l)
      = ∑ q ∈ Finset.range (16384 * (j + 1)), f q := by
  rw [Nat.mul_succ, Finset.sum_range_add]

/-! ## The result both programs compute -/

/-- The vector of the 64 rows' sums of squared differences. -/
def rowSums (a b : Arr.Idx → EReal) : (⟨1, ![64]⟩ : Shape).Idx → EReal :=
  fun i => rowSum a b ⟨(i 0).val, (i 0).isLt⟩

/-- From a vector of 64 extended reals: the square roots, their sum starting from zero, divided by 64 — the host
    operations both programs end with, at the exact instance. The two shape facts are whichever proofs a program
    states of them. -/
def meanRoots (h2 : (⟨1, ![64]⟩ : Shape).ReducesTo [0] ⟨0, ![]⟩) (h3 : 0 < (⟨0, ![]⟩ : Shape).numel)
    (v : (⟨1, ![64]⟩ : Shape).Idx → EReal) : (⟨0, ![]⟩ : Shape).Idx → EReal :=
  Host.divf (F := Ideal) (φ := .f32)
    (Host.reduceAdd (F := Ideal) (φ := .f32) (Host.sqrt (F := Ideal) (φ := .f32) v)
      (constant (F := Ideal) ⟨0, ![]⟩ .f32 0x00000000#32) h2 h3)
    (constant (F := Ideal) ⟨0, ![]⟩ .f32 0x42800000#32)

end Cert.SumSq

end
-- ==== Proof.Blocks.lean ====
/-
  Where a tile sits in its array.

  The grid has 64 points, numbered row block first: point `t` works on row block `t / 32` (rows `32 · (t / 32) + r`,
  `r < 32`) and column tile `t % 32` (columns `16384 · (t % 32) + l`, `l < 16384`) of both inputs, and on block
  `t / 32` of the [64, 1] output. So the tile's entry `(r, l)` is the array's entry
  `(32 · (t / 32) + r, 16384 · (t % 32) + l)`, and a tile's sum of squared differences at row `r` is a stretch of
  16384 consecutive terms of that row's sum.
-/
import proofs.«145757_j5652176962170_1_alg».proof.Proof.Gen.KernelIdeal.Frame
import proofs.«145757_j5652176962170_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- The two argument arrays as the kernel finds them, and their tiles at grid point `t`, at their literal shapes. -/
abbrev xarr (c : Dev nD) : Vec F S64x524288 .f32 := V m c main_arg0
abbrev yarr (c : Dev nD) : Vec F S64x524288 .f32 := V m c main_arg1
abbrev xblk (c : Dev nD) (t : Fin cfg0.N) : Vec F S32x16384 .f32 := iblk m c 0 t
abbrev yblk (c : Dev nD) (t : Fin cfg0.N) : Vec F S32x16384 .f32 := iblk m c 1 t

/-- The grid has 64 points. -/
theorem point_lt (t : Fin cfg0.N) : t.val < 64 := lt_of_lt_of_eq t.isLt (show cfg0.N = 64 from N_0)

/-- Point `t` reads block `(t / 32, t % 32)` of each input and writes block `(t / 32, 0)` of the output. -/
theorem block_of_x : ∀ t : Fin cfg0.N, win0_0.index t 0 = t.val / 32 ∧ win0_0.index t 1 = t.val % 32 :=
  (by decide +kernel : ∀ t : Fin grid0.N, win0_0.index t 0 = t.val / 32 ∧ win0_0.index t 1 = t.val % 32)
theorem block_of_y : ∀ t : Fin cfg0.N, win0_1.index t 0 = t.val / 32 ∧ win0_1.index t 1 = t.val % 32 :=
  (by decide +kernel : ∀ t : Fin grid0.N, win0_1.index t 0 = t.val / 32 ∧ win0_1.index t 1 = t.val % 32)
theorem block_of_out : ∀ t : Fin cfg0.N, win0_2.index t 0 = t.val / 32 ∧ win0_2.index t 1 = 0 :=
  (by decide +kernel : ∀ t : Fin grid0.N, win0_2.index t 0 = t.val / 32 ∧ win0_2.index t 1 = 0)

/-- Entry `(r, l)` of the first input's tile at point `t` is the array's entry at row `32 · (t / 32) + r`, column
    `16384 · (t % 32) + l`. -/
theorem xblk_apply (c : Dev nD) (t : Fin cfg0.N) (r : Fin 32) (l : Fin 16384)
    (hR : 32 * (t.val / 32) + r.val < 64) (hq : 16384 * (t.val % 32) + l.val < 524288) :
    xblk m c t (ix2 r l) = xarr m c (ix2 ⟨32 * (t.val / 32) + r.val, hR⟩ ⟨16384 * (t.val % 32) + l.val, hq⟩) := by
  show iblk m c 0 t (ix2 r l) = V m c main_arg0 _
  unfold iblk
  rw [View.read_apply]
  show V m c main_arg0 _ = V m c main_arg0 _
  congr 1
  funext a
  apply Fin.ext
  match a with
  | ⟨0, _⟩ => show win0_0.index t 0 * 32 + 1 * r.val = 32 * (t.val / 32) + r.val; rw [(block_of_x t).1]; omega
  | ⟨1, _⟩ => show win0_0.index t 1 * 16384 + 1 * l.val = 16384 * (t.val % 32) + l.val; rw [(block_of_x t).2]; omega

/-- The same for the second input. -/
theorem yblk_apply (c : Dev nD) (t : Fin cfg0.N) (r : Fin 32) (l : Fin 16384)
    (hR : 32 * (t.val / 32) + r.val < 64) (hq : 16384 * (t.val % 32) + l.val < 524288) :
    yblk m c t (ix2 r l) = yarr m c (ix2 ⟨32 * (t.val / 32) + r.val, hR⟩ ⟨16384 * (t.val % 32) + l.val, hq⟩) := by
  show iblk m c 1 t (ix2 r l) = V m c main_arg1 _
  unfold iblk
  rw [View.read_apply]
  show V m c main_arg1 _ = V m c main_arg1 _
  congr 1
  funext a
  apply Fin.ext
  match a with
  | ⟨0, _⟩ => show win0_1.index t 0 * 32 + 1 * r.val = 32 * (t.val / 32) + r.val; rw [(block_of_y t).1]; omega
  | ⟨1, _⟩ => show win0_1.index t 1 * 16384 + 1 * l.val = 16384 * (t.val % 32) + l.val; rw [(block_of_y t).2]; omega

end Cert.KernelIdeal.Acc

namespace Cert.KernelIdeal.Acc

open Cert.KernelIdeal Cert.KernelIdeal.Gen

variable (m : (ℓ : Loc nD τ sig) → Buf (Elt Ideal) ℓ)

/-- Over the extended reals, row `r` of tile `t`'s sum of squared differences is the stretch of row
    `32 · (t / 32) + r`'s terms at columns `16384 · (t % 32) + l`, `l < 16384`. -/
theorem tile_row_sum (c : Dev nD) (t : Fin cfg0.N) (r : Fin 32) :
    ∑ l : Fin 16384, (xblk m c t (ix2 r l) - yblk m c t (ix2 r l)) * (xblk m c t (ix2 r l) - yblk m c t (ix2 r l))
      = ∑ l ∈ Finset.range 16384,
          SumSq.sqAt (xarr m c) (yarr m c) (32 * (t.val / 32) + r.val) (16384 * (t.val % 32) + l) := by
  have hN := point_lt t
  have hr := r.isLt
  refine SumSq.tile_sum (xarr m c) (yarr m c) (32 * (t.val / 32) + r.val) (t.val % 32) _ fun l => ?_
  have hl := l.isLt
  have hR : 32 * (t.val / 32) + r.val < 64 := by omega
  have hq : 16384 * (t.val % 32) + l.val < 524288 := by omega
  rw [xblk_apply m c t r l hR hq, yblk_apply m c t r l hR hq]
  unfold SumSq.sqAt
  rw [dif_pos ⟨hR, hq⟩]

end Cert.KernelIdeal.Acc

end
-- ==== Proof.Running.lean ====
/-
  The accumulator after every grid point is a partial sum of its rows' sums of squared differences.

  After point `t` (row block `t / 32`, column tile `t % 32`) the accumulator's row `r` holds the sum of the squared
  differences of row `32 · (t / 32) + r` over its first `16384 · (t % 32 + 1)` columns. At a first tile the body
  starts from the zero block, so the accumulator is the tile's own row sum; at a later tile it adds the tile's row
  sum to what the previous point left, which by induction is the partial sum over the earlier tiles of the same row
  block. By induction on the point, never by listing the points.
-/
import proofs.«145757_j5652176962170_1_alg».proof.Proof.Pieces
import proofs.«145757_j5652176962170_1_alg».proof.Proof.Blocks

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The partial sum of row `R`'s squared differences over its first `16384 · k` columns. -/
abbrev partialSum (c : Dev nD) (R k : ℕ) : EReal :=
  ∑ q ∈ Finset.range (16384 * k), SumSq.sqAt (xarr m c) (yarr m c) R q

/-- What the accumulator holds after point `n`, at its literal shape. -/
abbrev accAfter (c : Dev nD) (n : ℕ) (h : n < cfg0.N) : Vec Ideal S32x1 .f32 := outsAt0 m c n h

/-- A first tile: the accumulator's row `r` is the tile's own row sum. -/
theorem after_first_tile (c : Dev nD) (t : Fin cfg0.N) (h0 : t.val % 32 = 0) (r : Fin 32) :
    accAfter m c t.val t.isLt (ix2 r 0) = partialSum m c (32 * (t.val / 32) + r.val) (t.val % 32 + 1) := by
  show outsAt0 m c t.val t.isLt (ix2 r 0) = _
  rw [outsAt0_A m c t h0]
  refine (congrFun (first_tile (F := Ideal) c (grid0.coords t) (ms0_0 t) (hs0_0 t) (ms0_1 t) (hs0_1 t) (ms0_2 t) (hs0_2 t)
    ((hcond0_0 t).mpr h0) (xblk m c t) (yblk m c t)) (ix2 r 0)).trans ?_
  refine (acc_payload_apply (xblk m c t) (yblk m c t) (k0_pay1 (F := Ideal)) r).trans ?_
  rw [zero_block_apply, zero_add, tile_row_sum m c t r, h0]
  show _ = ∑ q ∈ Finset.range (16384 * (0 + 1)), _
  simp only [Nat.mul_zero, Nat.zero_add, Nat.mul_one]

/-- A later tile: the accumulator's row `r` is what the point before left plus the tile's row sum. -/
theorem after_later_tile (c : Dev nD) (t : Fin cfg0.N) (h0 : ¬t.val % 32 = 0) (r : Fin 32) :
    accAfter m c t.val t.isLt (ix2 r 0)
      = accAfter m c (t.val - 1) (Nat.lt_of_le_of_lt (Nat.sub_le _ _) t.isLt) (ix2 r 0)
        + ∑ l ∈ Finset.range 16384,
            SumSq.sqAt (xarr m c) (yarr m c) (32 * (t.val / 32) + r.val) (16384 * (t.val % 32) + l) := by
  show outsAt0 m c t.val t.isLt (ix2 r 0) = _
  rw [outsAt0_B m c t h0]
  refine (congrFun (later_tile (F := Ideal) c (grid0.coords t) (ms0_0 t) (hs0_0 t) (ms0_1 t) (hs0_1 t) (ms0_2 t) (hs0_2 t)
    (fun h => h0 ((hcond0_0 t).mp h)) (xblk m c t) (yblk m c t)
    (accAfter m c (t.val - 1) (Nat.lt_of_le_of_lt (Nat.sub_le _ _) t.isLt))) (ix2 r 0)).trans ?_
  refine (acc_payload_apply (xblk m c t) (yblk m c t) (accAfter m c (t.val - 1) _) r).trans ?_
  rw [tile_row_sum m c t r]

/-- After every point the accumulator holds the partial sums of its row block up to and including the point's tile. -/
theorem running_sum (c : Dev nD) : ∀ (n : ℕ) (h : n < cfg0.N) (r : Fin 32),
    accAfter m c n h (ix2 r 0) = partialSum m c (32 * (n / 32) + r.val) (n % 32 + 1)
  | 0, h, r => after_first_tile m c ⟨0, h⟩ rfl r
  | n + 1, h, r => by
    by_cases h0 : (n + 1) % 32 = 0
    · exact after_first_tile m c ⟨n + 1, h⟩ h0 r
    · refine (after_later_tile m c ⟨n + 1, h⟩ h0 r).trans ?_
      show accAfter m c n _ (ix2 r 0) + _ = _
      rw [running_sum c n (Nat.lt_of_succ_lt h) r]
      have e1 : n / 32 = (n + 1) / 32 := by omega
      have e2 : n % 32 + 1 = (n + 1) % 32 := by omega
      rw [e1, e2]
      exact SumSq.acc_step _ _

end Cert.KernelIdeal.Acc

end
-- ==== Proof.Final.lean ====
/-
  The output array after the kernel, and the program's result.

  The accumulator block of row block `b` is written back once, after the last column tile (point `32 · b + 31`), when
  it holds the full sums of its 32 rows. The two write-backs fill the [64, 1] output, so after the kernel its entry
  `(R, 0)` is row `R`'s sum of squared differences over all 524288 columns. The host lines after the kernel recast
  that column as a vector of 64, take square roots, add them up from zero and divide by 64.
-/
import proofs.«145757_j5652176962170_1_alg».proof.Proof.Running
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The column of row sums: entry `(R, 0)` is row `R`'s sum of squared differences of the two argument arrays. -/
def sumColumn (c : Dev nD) : Vec Ideal S64x1 .f32 :=
  fun i => SumSq.rowSum (xarr m c) (yarr m c) ⟨(i 0).val, idx2_lt0 i⟩

/-- An index of a [32, 1] block is a row and the column 0. -/
theorem block_idx (j : S32x1.Idx) : ∃ r : Fin 32, j = ix2 r 0 :=
  ⟨j 0, (eq_ix2 j).trans (congrArg (ix2 (j 0)) (Fin.ext (by have := idx2_lt1 j; show (j 1).val = 0; omega)))⟩

/-- Row `r` of point `t`'s block of a [64, 1] array is the array's row `32 · (t / 32) + r`. -/
theorem out_block_read (G : Vec Ideal S64x1 .f32) (t : Fin cfg0.N) (r : Fin 32) (hR : 32 * (t.val / 32) + r.val < 64) :
    ((cfg0.win 2).blk t).view.read (Elt Ideal) G (ix2 r 0) = G (ix2 ⟨32 * (t.val / 32) + r.val, hR⟩ 0) := by
  rw [View.read_apply]
  show G _ = G _
  congr 1
  funext a
  apply Fin.ext
  match a with
  | ⟨0, _⟩ => show win0_2.index t 0 * 32 + 1 * r.val = 32 * (t.val / 32) + r.val; rw [(block_of_out t).1]; omega
  | ⟨1, _⟩ => show win0_2.index t 1 * 1 + 1 * 0 = 0; rw [(block_of_out t).2]

/-- After the last column tile of a row block the accumulator holds that block of the column of row sums. -/
theorem flushed_eq (c : Dev nD) (t : Fin cfg0.N) (hf : (cfg0.win 2).flush t = true) :
    (dats m 0 c).flushed 2 t = ((cfg0.win 2).blk t).view.read (Elt Ideal) (sumColumn m c) := by
  have h31 : t.val % 32 = 31 := (flush0_2 t).mp hf
  have hN := point_lt t
  show (cfg0.win 2).cut (grid0.coords t) ((dats m 0 c).after 2 t) = _
  rw [after0_2]
  funext j
  obtain ⟨r, rfl⟩ := block_idx j
  have hr := r.isLt
  refine (running_sum m c t.val t.isLt r).trans ?_
  have hR : 32 * (t.val / 32) + r.val < 64 := by omega
  show ∑ q ∈ Finset.range (16384 * (t.val % 32 + 1)), SumSq.sqAt (xarr m c) (yarr m c) (32 * (t.val / 32) + r.val) q = _
  rw [h31]
  refine (SumSq.sum_range_sqAt (xarr m c) (yarr m c) ⟨32 * (t.val / 32) + r.val, hR⟩).trans ?_
  rw [out_block_read (sumColumn m c) t r hR]
  exact congrArg (SumSq.rowSum (xarr m c) (yarr m c)) (Fin.ext rfl)

/-- An index of the output array is in point `t`'s block iff each coordinate is in the block's range on its axis. -/
theorem mem_out_block (t : Fin cfg0.N) (i : S64x1.Idx) :
    i ∈ ((cfg0.win 2).blk t).view.set
      ↔ ∀ a : Fin 2, win0_2.index t a * S32x1.size a ≤ (i a).val ∧ (i a).val < win0_2.index t a * S32x1.size a + S32x1.size a := by
  show i ∈ ((View.whole main_v0).slice (win0_2.rect t)).set ↔ _
  rw [View.set_slice_whole, Rect.mem_set_unit]
  exact Iff.rfl

/-- Every entry of the output array is in the block written back after the last tile of its row block. -/
theorem covered (i : S64x1.Idx) : ∃ t : Fin cfg0.N, (cfg0.win 2).flush t = true ∧ i ∈ ((cfg0.win 2).blk t).view.set := by
  have hi0 : (i 0).val < 64 := idx2_lt0 i
  have hi1 : (i 1).val < 1 := idx2_lt1 i
  have hN : cfg0.N = 64 := N_0
  let t : Fin cfg0.N := ⟨32 * ((i 0).val / 32) + 31, by rw [hN]; omega⟩
  have ht : t.val = 32 * ((i 0).val / 32) + 31 := rfl
  refine ⟨t, (flush0_2 t).mpr (by rw [ht]; omega), ?_⟩
  rw [mem_out_block]
  obtain ⟨e0, e1⟩ := block_of_out t
  intro a
  match a with
  | ⟨0, _⟩ => show win0_2.index t 0 * 32 ≤ (i 0).val ∧ (i 0).val < win0_2.index t 0 * 32 + 32; rw [e0, ht]; omega
  | ⟨1, _⟩ => show win0_2.index t 1 * 1 ≤ (i 1).val ∧ (i 1).val < win0_2.index t 1 * 1 + 1; rw [e1]; omega

/-- So the output array ends holding the column of row sums. -/
theorem final_column (c : Dev nD) : (dats m 0 c).arrAt 2 cfg0.N = sumColumn m c :=
  (dats m 0 c).arrAt_eq_of_cover 2 (sumColumn m c) (flushed_eq m c) covered

/-! ## The host lines after the kernel -/

/-- The program's result from the output column: recast to a vector of 64, square roots, their sum from zero,
    divided by 64. -/
def meanOfRoots (col : Vec Ideal S64x1 .f32) : Vec Ideal S_ .f32 :=
  Host.divf (F := Ideal)
    (Host.reduceAdd (F := Ideal) (Host.sqrt (F := Ideal) (shapeCast S64 col shapeCasts_S64x1_S64))
      (constant (F := Ideal) S_ .f32 0x00000000#32) reducesTo_S64_S_d0 h_S_)
    (constant (F := Ideal) S_ .f32 0x42800000#32)

/-- The result buffer after the host lines is that function of the column of row sums. -/
theorem tail_eq (c : Dev nD) :
    Pipeline.afterTail₀ cfgs (dats m) 0 (V0 m) [hostOps1] c main_v4 = meanOfRoots (sumColumn m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v0)
      = sumColumn m c := (Pipeline.withArrays_arr spec0 launch0.win.arr_inj c _ _ 2).trans (final_column m c)
  rw [e]
  rfl

/-- The column of row sums recast as a vector of 64 is the vector of row sums of the two argument arrays. -/
theorem column_as_vector (c : Dev nD) :
    shapeCast S64 (sumColumn m c) shapeCasts_S64x1_S64
      = SumSq.rowSums (m ((c : Thread nD τ).loc main_arg0)) (m ((c : Thread nD τ).loc main_arg1)) := by
  funext i
  have hi : (i 0).val < 64 := (i 0).isLt
  refine (shapeCast_apply (sumColumn m c) shapeCasts_S64x1_S64 i (ix2 ⟨(i 0).val, hi⟩ 0)
    (by rw [Shape.rowMajor_val_one, Shape.rowMajor_val_two]; simp)).trans ?_
  rfl

/-- So the program's result is the mean of the square roots of the row sums of the two argument arrays. -/
theorem result_eq (c : Dev nD) :
    meanOfRoots (sumColumn m c)
      = SumSq.meanRoots reducesTo_S64_S_d0 h_S_
          (SumSq.rowSums (m ((c : Thread nD τ).loc main_arg0)) (m ((c : Thread nD τ).loc main_arg1))) :=
  congrArg (SumSq.meanRoots reducesTo_S64_S_d0 h_S_) (column_as_vector m c)

/-! ## The run, read -/

/-- Every weakly fair execution of the idealized kernel program ends with the result buffer at the mean of the
    square roots of the row sums, the two arguments unchanged. -/
theorem run : θ_run defs (onTc (τ := τ) (main (F := Ideal))) ⟨m, fun _ => 0, ρ⟩ fun r => ∀ c : Dev nD,
      r.2.mem ((c.tc : Thread nD τ).loc main_v4)
        = SumSq.meanRoots reducesTo_S64_S_d0 h_S_
            (SumSq.rowSums (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 rfl (by decide))).trans ((tail_eq m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.RefValue.lean ====
/-
  The reference program's result in the same terms.

  The reference subtracts the two arrays, squares the difference entry by entry, and sums each row over all 524288
  columns starting from zero; over the extended reals that is the row's sum of squared differences. Then it takes
  square roots, adds the 64 of them up from zero and divides by 64: the same closing operations as the kernel
  program's, applied to the same vector of row sums.
-/
import proofs.«145757_j5652176962170_1_alg».proof.Proof.Gen.ReferenceIdeal.Read
import proofs.«145757_j5652176962170_1_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-- The reference's row reduction of the squared differences is the vector of row sums. -/
theorem row_reduce_eq (a b : (⟨S64x524288, .f32⟩ : BufTy).Contents (Elt Ideal)) :
    Read.val_main_v2 (F := Ideal) a b = SumSq.rowSums a b := by
  funext i
  rw [Read.val_main_v2_apply, Read.val_main_cst_apply]
  show Ideal.ofBits .f32 0x00000000#32 + _ = _
  rw [Ideal.ofBits_zero_f32, zero_add]
  unfold SumSq.rowSums SumSq.rowSum
  refine Finset.sum_congr rfl fun k _ => ?_
  have hj : Read.idx_main_v2 i k = ix2 ⟨(i 0).val, (i 0).isLt⟩ k :=
    funext fun a => Fin.ext (by match a with | ⟨0, _⟩ => rfl | ⟨1, _⟩ => rfl)
  rw [hj]
  rfl

/-- So the reference's result is the mean of the square roots of the row sums of its two arguments. -/
theorem result_eq (a b : (⟨S64x524288, .f32⟩ : BufTy).Contents (Elt Ideal)) :
    Host.divf (F := Ideal) (Host.reduceAdd (F := Ideal) (Host.sqrt (F := Ideal) (Host.reduceAdd (F := Ideal)
        (mulf (subf a b) (subf a b)) (constant (F := Ideal) S_ .f32 0x00000000#32) reducesTo_S64x524288_S64_d1 h_S_))
        (constant (F := Ideal) S_ .f32 0x00000000#32) reducesTo_S64_S_d0 h_S_) (constant (F := Ideal) S_ .f32 0x42800000#32)
      = SumSq.meanRoots reducesTo_S64_S_d0 h_S_ (SumSq.rowSums a b) :=
  congrArg (SumSq.meanRoots reducesTo_S64_S_d0 h_S_) (row_reduce_eq a b)

end Cert.ReferenceIdeal.RefValue

end
-- ==== Proof.lean ====
/-
  The kernel program and its reference compute the same number over the extended reals: for two arrays of shape
  [64, 524288], the mean over the 64 rows of the square root of the row's sum of squared differences.

  The kernel walks a 2 × 32 grid of [32, 16384] tiles. For each row block it zeroes a [32, 1] accumulator at the
  first column tile, adds each tile's row sums of squared differences into it, and writes it back after the last
  tile; the host then recasts the [64, 1] column, takes square roots, sums them from zero and divides by 64. The
  reference subtracts, squares and reduces each whole row at once, and ends with the same square roots, sum and
  division. The only difference is the order in which a row's 524288 squared differences are added up — tile by
  tile, or all at once — and addition on the extended reals is commutative and associative, so the two row sums are
  equal for every input; the finiteness precondition is not used.

  The modules: `Spec` (the row sums and the closing operations, no program), `Pieces` (what one run of the body
  leaves in the accumulator), `Blocks` (where a tile sits in its array), `Running` (the accumulator after every
  grid point is a partial row sum, by induction on the point), `Final` (the output array after the kernel, the host
  lines after it, the kernel program's run), `RefValue` (the reference's result in the same terms). The three frame
  claims are the generated frames and the reference's generated run; the idealization rewrote nothing.
-/
import proofs.«145757_j5652176962170_1_alg».proof.Defs
import proofs.«145757_j5652176962170_1_alg».proof.Proof.Gen.Kernel
import proofs.«145757_j5652176962170_1_alg».proof.Proof.Gen.Kernel.Frame
import proofs.«145757_j5652176962170_1_alg».proof.Proof.Gen.KernelIdeal
import proofs.«145757_j5652176962170_1_alg».proof.Proof.Gen.KernelIdeal.Frame
import proofs.«145757_j5652176962170_1_alg».proof.Proof.Gen.ReferenceIdeal
import proofs.«145757_j5652176962170_1_alg».proof.Proof.Gen.ReferenceIdeal.Run
import proofs.«145757_j5652176962170_1_alg».proof.Proof.Gen.Pre_finite_inputs
import proofs.«145757_j5652176962170_1_alg».proof.Proof.Final
import proofs.«145757_j5652176962170_1_alg».proof.Proof.RefValue
import Idealize.ShloMosaic.Adequacy
import Idealize.ShloMosaic.Init

noncomputable section

namespace Cert.Proof

open Idealize.ShloMosaic Idealize.SL.Sem

/-- The word-level kernel program runs to the end without a fault and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the result at the mean of the square
    roots of the arguments' row sums of squared differences. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
